-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x4096x4096 : Shape := ⟨4, ![1, 1, 4096, 4096]⟩
abbrev S_ : Shape := ⟨0, ![]⟩

class Facts : Prop where
  bcast_S_S1x1x4096x4096 : S_.BroadcastsInDim S1x1x4096x4096 (![] : Fin 0 → Fin S1x1x4096x4096.rank)
  reducesTo_S1x1x4096x4096_S_d0_1_2_3 : S1x1x4096x4096.ReducesTo [0, 1, 2, 3] S_
  h_S_ : 0 < S_.numel

variable [Facts]

def fn {F : FTy → Type} [FloatOps F] (main_arg0 : FVec F S1x1x4096x4096 .f32) : IVec S_ 1 :=
  let main_v0 : FVec F S1x1x4096x4096 .f32 := Host.absf main_arg0
  let main_cst : FVec F S_ .f32 := constant S_ .f32 0x7F800000#32
  let main_v1 : FVec F S1x1x4096x4096 .f32 := broadcastInDim S1x1x4096x4096 ![] bcast_S_S1x1x4096x4096 main_cst
  let main_v2 : IVec S1x1x4096x4096 1 := cmpf .olt main_v0 main_v1
  let main_c : IVec S_ 1 := constantI S_ 1 1#1
  let main_v3 : IVec S_ 1 := (fun x v => Host.reduce IntOp.andi x v reducesTo_S1x1x4096x4096_S_d0_1_2_3 h_S_) main_v2 main_c
  main_v3
-- ==== Kernel.lean ====
abbrev S1x1x4096x4096 : Shape := ⟨4, ![1, 1, 4096, 4096]⟩
abbrev S_ : Shape := ⟨0, ![]⟩
abbrev S1x1x4096x4110 : Shape := ⟨4, ![1, 1, 4096, 4110]⟩
abbrev S4096x4110 : Shape := ⟨2, ![4096, 4110]⟩
abbrev S4096x4096 : Shape := ⟨2, ![4096, 4096]⟩
abbrev S256x4110 : Shape := ⟨2, ![256, 4110]⟩
abbrev S256x4096 : Shape := ⟨2, ![256, 4096]⟩

abbrev nBuf : Space → Nat
  | .hbm => 7
  | .vmem => 4
  | .smem => 0
  | _ => 0

abbrev bufTy : (tb : Table) → Fin (tcTables nBuf tb) → BufTy
  | .hbm, ⟨0, _⟩ => ⟨S1x1x4096x4096, .f32⟩
  | .hbm, ⟨1, _⟩ => ⟨S_, .f32⟩
  | .hbm, ⟨2, _⟩ => ⟨S_, .f32⟩
  | .hbm, ⟨3, _⟩ => ⟨S1x1x4096x4110, .f32⟩
  | .hbm, ⟨4, _⟩ => ⟨S4096x4110, .f32⟩
  | .hbm, ⟨5, _⟩ => ⟨S4096x4096, .f32⟩
  | .hbm, ⟨6, _⟩ => ⟨S1x1x4096x4096, .f32⟩
  | .local _ .vmem, ⟨0, _⟩ => ⟨S256x4110, .f32⟩
  | .local _ .vmem, ⟨1, _⟩ => ⟨S256x4110, .f32⟩
  | .local _ .vmem, ⟨2, _⟩ => ⟨S256x4096, .f32⟩
  | .local _ .vmem, ⟨3, _⟩ => ⟨S256x4096, .f32⟩
  | _, _ => ⟨S1x1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4110 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S1x1x4096x4096_S1x1x4096x4110_000_000_000_770 : S1x1x4096x4096.Pads (![0, 0, 0, 7] : Fin 4 → Nat) ![0, 0, 0, 7] ![0, 0, 0, 0] S1x1x4096x4110
  h_S_ : 0 < S_.numel
  shapeCasts_S1x1x4096x4110_S4096x4110 : S1x1x4096x4110.ShapeCasts S4096x4110
  inb_S256x4110_S256x4110_0_0 : ∀ a, (![0, 0] : Fin 2 → Nat) a + S256x4110.size a ≤ S256x4110.size a
  h_S256x4110 : 0 < S256x4110.numel
  shapeCasts_S256x4110_S256x4110 : S256x4110.ShapeCasts S256x4110
  slices_S256x4110_o0_0_S256x4096 : S256x4110.Slices ![0, 0] S256x4096
  slices_S256x4110_o0_1_S256x4096 : S256x4110.Slices ![0, 1] S256x4096
  slices_S256x4110_o0_2_S256x4096 : S256x4110.Slices ![0, 2] S256x4096
  slices_S256x4110_o0_3_S256x4096 : S256x4110.Slices ![0, 3] S256x4096
  slices_S256x4110_o0_4_S256x4096 : S256x4110.Slices ![0, 4] S256x4096
  slices_S256x4110_o0_5_S256x4096 : S256x4110.Slices ![0, 5] S256x4096
  slices_S256x4110_o0_6_S256x4096 : S256x4110.Slices ![0, 6] S256x4096
  slices_S256x4110_o0_7_S256x4096 : S256x4110.Slices ![0, 7] S256x4096
  slices_S256x4110_o0_8_S256x4096 : S256x4110.Slices ![0, 8] S256x4096
  slices_S256x4110_o0_9_S256x4096 : S256x4110.Slices ![0, 9] S256x4096
  slices_S256x4110_o0_10_S256x4096 : S256x4110.Slices ![0, 10] S256x4096
  slices_S256x4110_o0_11_S256x4096 : S256x4110.Slices ![0, 11] S256x4096
  slices_S256x4110_o0_12_S256x4096 : S256x4110.Slices ![0, 12] S256x4096
  slices_S256x4110_o0_13_S256x4096 : S256x4110.Slices ![0, 13] S256x4096
  slices_S256x4110_o0_14_S256x4096 : S256x4110.Slices ![0, 14] S256x4096
  inb_S256x4096_S256x4096_0_0 : ∀ a, (![0, 0] : Fin 2 → Nat) a + S256x4096.size a ≤ S256x4096.size a
  h_S256x4096 : 0 < S256x4096.numel
  shapeCasts_S4096x4096_S1x1x4096x4096 : S4096x4096.ShapeCasts S1x1x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4110.size a ≤ S4096x4110.size a
  hwx0_0 : ∀ i : grid0.Coords, EltTy.bits .f32 = 32 ∨ (Rect.block (s := S4096x4110) S256x4110.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)

variable [Facts₀]

abbrev win0_0 : Pipeline.Window sig grid0 :=
  Pipeline.Window.ofSpec (Memref.whole main_v1) S256x4110.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x1x4096x4096 : Shape := ⟨4, ![1, 1, 4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1x1x4096x4096, .f32⟩
  | .hbm, ⟨1, _⟩ => ⟨S_, .f32⟩
  | .hbm, ⟨2, _⟩ => ⟨S_, .f32⟩
  | .hbm, ⟨3, _⟩ => ⟨S1x1x4096x4096, .f32⟩
  | .hbm, ⟨4, _⟩ => ⟨S_, .f32⟩
  | .hbm, ⟨5, _⟩ => ⟨S1x1x4096x4096, .f32⟩
  | .hbm, ⟨6, _⟩ => ⟨S1x1x4096x4096, .f32⟩
  | _, _ => ⟨S1x1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S1x1x4096x4096_S1x1x4096x4096_w1s1p0_0_w1s1p0_0_w1s1p0_0_w15s1p7_7 : S1x1x4096x4096.ReduceWindows (![1, 1, 1, 15] : Fin 4 → Nat) ![1, 1, 1, 1] ![0, 0, 0, 7] ![0, 0, 0, 7] S1x1x4096x4096
  h_S_ : 0 < S_.numel
  bcast_S_S1x1x4096x4096 : S_.BroadcastsInDim S1x1x4096x4096 (![] : Fin 0 → Fin S1x1x4096x4096.rank)

variable [Facts₀]

class Facts : Prop extends Facts₀ where

variable [Facts]
-- ==== Proof.Window.lean ====
/-
  A row of an image widened by seven columns of a padding value on each side, the greatest of fifteen neighbouring
  columns of it, and a host window reduction over one row read as that greatest value.
-/
import Idealize.ShloMosaic.PureOps.Ideal
import Idealize.ShloMosaic.PureOps.Ideal.Laws
import Idealize.ShloMosaic.Lib.ValueIdx
import Idealize.ShloMosaic.Lib.KernelVsHost

noncomputable section

namespace Cert.Dilate

open Idealize.ShloMosaic Idealize.ShloMosaic.ValueIdx

abbrev Img : Shape := ⟨4, ![1, 1, 4096, 4096]⟩
abbrev Scal : Shape := ⟨0, ![]⟩

/-- The greatest of fifteen values, taken left to right. -/
def win15 (f : Fin 15 → EReal) : EReal :=
  max (max (max (max (max (max (max (max (max (max (max (max (max (max (f 0) (f 1)) (f 2)) (f 3)) (f 4)) (f 5)) (f 6)) (f 7)) (f 8)) (f 9)) (f 10)) (f 11)) (f 12)) (f 13)) (f 14)

/-- Column `c` of row `h` of the image with seven columns of `v` put before column 0 and seven after the last:
    the image's column `c - 7` where that exists, `v` elsewhere. -/
def tap (x : Img.Idx → EReal) (v : EReal) (h : Fin 4096) (c : ℕ) : EReal :=
  if hc : 7 ≤ c ∧ c - 7 < 4096 then x (ix4 (0 : Fin 1) (0 : Fin 1) h ⟨c - 7, hc.2⟩) else v

/-- The dilated row: at column `w` the greatest of the widened row's columns `w … w + 14`, and of `z`. -/
def dil (x : Img.Idx → EReal) (v z : EReal) (h w : Fin 4096) : EReal :=
  max (win15 fun o => tap x v h (w.val + o.val)) z

/-- The dilated image: every row dilated, the padding value the least extended real. -/
def dilated (x : Img.Idx → EReal) (z : EReal) : Img.Idx → EReal :=
  fun i => dil x ⊥ z (i 2) (i 3)

/-- A left fold over the fifteen positions `0 … 14`, written out. -/
theorem foldl_finRange15 {α : Type} {N : ℕ} (hN : N = 15) (g : α → α → α) (a : α) (f : Fin N → α) :
    (List.finRange N).foldl (fun r k => g r (f k)) a
      = g (g (g (g (g (g (g (g (g (g (g (g (g (g (g (a) (f ⟨0, by omega⟩)) (f ⟨1, by omega⟩)) (f ⟨2, by omega⟩)) (f ⟨3, by omega⟩)) (f ⟨4, by omega⟩)) (f ⟨5, by omega⟩)) (f ⟨6, by omega⟩)) (f ⟨7, by omega⟩)) (f ⟨8, by omega⟩)) (f ⟨9, by omega⟩)) (f ⟨10, by omega⟩)) (f ⟨11, by omega⟩)) (f ⟨12, by omega⟩)) (f ⟨13, by omega⟩)) (f ⟨14, by omega⟩) := by
  subst hN
  rfl

/-- The fifteen positions of a window one row high and fifteen columns wide, as a shape. -/
abbrev Win : Shape := ⟨4, ![1, 1, 1, 15]⟩

theorem win_numel : Win.numel = 15 := by decide

/-- Position `n` of the window, in row-major order, is column `n` of its one row. -/
theorem win_pos (n : Fin Win.numel) :
    (Win.rowMajor.symm n 0).val = 0 ∧ (Win.rowMajor.symm n 1).val = 0 ∧ (Win.rowMajor.symm n 2).val = 0
      ∧ (Win.rowMajor.symm n 3).val = n.val := by
  have h := Shape.rowMajor_val_four (Win.rowMajor.symm n)
  rw [Equiv.apply_symm_apply] at h
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  have d1 : (![1, 1, 1, 15] : Fin 4 → ℕ) 1 = 1 := rfl
  have d2 : (![1, 1, 1, 15] : Fin 4 → ℕ) 2 = 1 := rfl
  have d3 : (![1, 1, 1, 15] : Fin 4 → ℕ) 3 = 15 := rfl
  rw [d1, d2, d3] at h
  omega

/-- Two left folds whose steps combine equal elements are equal. -/
theorem foldl_congr_elt {α β ι : Type} (g : α → β → α) (a : α) (l : List ι) (E E' : ι → β) (hE : ∀ n, E n = E' n) :
    l.foldl (fun r n => g r (E n)) a = l.foldl (fun r n => g r (E' n)) a := by
  rw [funext hE]

/-- The host's window reduction by the maximum over a window one row high and fifteen columns wide, the row widened by
    seven columns on each side, from an initial value that is the least extended real: at row `h` and column `w` it
    is the greatest of the widened row's columns `w … w + 14`. The initial value is folded in once and is absorbed by the
    first column; the fourteen further steps are the nested maximum as written. -/
theorem reduceWindow_row (x : Img.Idx → Ideal .f32) (v : Scal.Idx → Ideal .f32)
    (h : Img.ReduceWindows (![1, 1, 1, 15] : Fin 4 → ℕ) ![1, 1, 1, 1] ![0, 0, 0, 7] ![0, 0, 0, 7] Img) (hu : 0 < Scal.numel)
    (hv : v (Shape.Idx.first hu) = ⊥) (i : Img.Idx) :
    Host.reduceWindow (s := Img) (t := Img) (FloatOps.maximumf (F := Ideal) (φ := .f32)) ![1, 1, 1, 15] ![1, 1, 1, 1] ![0, 0, 0, 7] ![0, 0, 0, 7] x v h hu i
      = win15 fun o => tap x ⊥ (i 2) ((i 3).val + o.val) := by
  unfold Host.reduceWindow
  dsimp only
  refine (foldl_congr_elt (FloatOps.maximumf (F := Ideal) (φ := .f32)) _ _ _ (fun n => tap x ⊥ (i 2) ((i 3).val + n.val)) ?_).trans ?_
  · intro n
    obtain ⟨p0, p1, p2, p3⟩ := win_pos n
    have i0 : (i 0).val < 1 := (i 0).isLt
    have i1 : (i 1).val < 1 := (i 1).isLt
    have i2 : (i 2).val < 4096 := (i 2).isLt
    have i3 : (i 3).val < 4096 := (i 3).isLt
    unfold tap
    split
    · rename_i hin
      have h3 : 7 ≤ (i 3).val * 1 + (Win.rowMajor.symm n 3).val ∧ (i 3).val * 1 + (Win.rowMajor.symm n 3).val - 7 < 4096 := hin 3
      have hc : 7 ≤ (i 3).val + n.val ∧ (i 3).val + n.val - 7 < 4096 := by omega
      rw [dif_pos hc]
      refine congrArg x (funext fun a => Fin.ext ?_)
      match a with
      | ⟨0, _⟩ => show (i 0).val * 1 + (Win.rowMajor.symm n 0).val - 0 = 0; omega
      | ⟨1, _⟩ => show (i 1).val * 1 + (Win.rowMajor.symm n 1).val - 0 = 0; omega
      | ⟨2, _⟩ => show (i 2).val * 1 + (Win.rowMajor.symm n 2).val - 0 = (i 2).val; omega
      | ⟨3, _⟩ => show (i 3).val * 1 + (Win.rowMajor.symm n 3).val - 7 = (i 3).val + n.val - 7; omega
    · rename_i hin
      rw [dif_neg, hv]
      intro hc
      apply hin
      intro a
      match a with
      | ⟨0, _⟩ => show 0 ≤ (i 0).val * 1 + (Win.rowMajor.symm n 0).val ∧ (i 0).val * 1 + (Win.rowMajor.symm n 0).val - 0 < 1; omega
      | ⟨1, _⟩ => show 0 ≤ (i 1).val * 1 + (Win.rowMajor.symm n 1).val ∧ (i 1).val * 1 + (Win.rowMajor.symm n 1).val - 0 < 1; omega
      | ⟨2, _⟩ => show 0 ≤ (i 2).val * 1 + (Win.rowMajor.symm n 2).val ∧ (i 2).val * 1 + (Win.rowMajor.symm n 2).val - 0 < 4096; omega
      | ⟨3, _⟩ => show 7 ≤ (i 3).val * 1 + (Win.rowMajor.symm n 3).val ∧ (i 3).val * 1 + (Win.rowMajor.symm n 3).val - 7 < 4096; omega
  · refine (foldl_finRange15 win_numel (FloatOps.maximumf (F := Ideal) (φ := .f32)) _ _).trans ?_
    rw [hv]
    have hb : ∀ e : EReal, FloatOps.maximumf (F := Ideal) (φ := .f32) ⊥ e = e := fun e => max_eq_right bot_le
    rw [hb]
    rfl

/-- The image widened to 4110 columns, as a shape. -/
abbrev ImgPad : Shape := ⟨4, ![1, 1, 4096, 4110]⟩

/-- The host's `pad` by seven columns before and seven after on the last axis, read at row `r` and column `c` of the
    widened image: the widened row's column `c`. -/
theorem pad_row (x : Img.Idx → Ideal .f32) (v : Scal.Idx → Ideal .f32)
    (h : Img.Pads (![0, 0, 0, 7] : Fin 4 → ℕ) ![0, 0, 0, 7] ![0, 0, 0, 0] ImgPad) (hu : 0 < Scal.numel)
    (r : Fin 4096) (c : Fin 4110) :
    pad ImgPad ![0, 0, 0, 7] ![0, 0, 0, 7] ![0, 0, 0, 0] x v h hu (ix4 (0 : Fin 1) (0 : Fin 1) r c)
      = tap x (v (Shape.Idx.first hu)) r c.val := by
  have hc4 : c.val < 4110 := c.isLt
  unfold tap
  split
  · rename_i hc
    refine pad_apply_of_inside _ _ _ x v h hu _ _ (fun a => ?_)
    match a with
    | ⟨0, _⟩ => show 0 = 0 + 0 * (0 + 1); rfl
    | ⟨1, _⟩ => show 0 = 0 + 0 * (0 + 1); rfl
    | ⟨2, _⟩ => show r.val = 0 + r.val * (0 + 1); omega
    | ⟨3, _⟩ => show c.val = 7 + (c.val - 7) * (0 + 1); omega
  · rename_i hc
    refine pad_apply_of_not_inside _ _ _ x v h hu _ 3 ?_
    intro hin
    have h3 : 7 ≤ c.val ∧ (c.val - 7) % (0 + 1) = 0 ∧ (c.val - 7) / (0 + 1) < 4096 := hin
    apply hc
    omega

/-- The binary32 word `0xFF800000` is minus infinity: the least extended real. -/
theorem ninf_eq : Ideal.ofBits .f32 0xFF800000#32 = (⊥ : EReal) := by
  simp [Ideal.ofBits, Ideal.ieee]

end Cert.Dilate

end
-- ==== Proof.Payload.lean ====
/-
  The kernel body's one stored value, read at an index: at row `p` and column `q` of the output block it is the greatest of
  the loaded block's row `p` at columns `q … q + 14`, and of zero. The body takes fifteen unit-stride slices of the loaded
  block, each 4096 columns wide and starting at column `o = 0 … 14`, and folds them with the elementwise maximum from the
  left; slice `o` at column `q` is the block's column `q + o`.
-/
import proofs.«152111_j10514079941475_1_alg».proof.Proof.Gen.KernelIdeal.Skeleton
import proofs.«152111_j10514079941475_1_alg».proof.Proof.Window
import Idealize.ShloMosaic.Lib.Pipeline.Value
import Idealize.ShloMosaic.Lib.ValueIdx

noncomputable section

namespace Cert.KernelIdeal.Hand

open Idealize.ShloMosaic Idealize.ShloMosaic.ValueIdx
open Cert.KernelIdeal Cert.KernelIdeal.Gen Cert.Dilate

/-- The unit-stride slice of the loaded block that starts at column `o`, read at row `p` and column `q`: the block's
    column `q + o` of that row. -/
theorem slice_col (o : ℕ) (ho : o < 15) (hs : S256x4110.Slices ![0, o] S256x4096) (X : S256x4110.Idx → Ideal .f32)
    (p : Fin 256) (q : Fin 4096) :
    extractStridedSlice S256x4096 ![0, o] X hs (ix2 p q) = X (ix2 p (⟨q.val + o, by omega⟩ : Fin 4110)) :=
  extractStridedSlice_apply _ X hs _ _ (fun a => by
    match a with
    | ⟨0, _⟩ => show p.val = 0 + p.val; omega
    | ⟨1, _⟩ => show q.val + o = o + q.val; omega)

/-- The stored value at row `p`, column `q`: the greatest of the loaded row's columns `q … q + 14`, and of zero. -/
theorem pay_apply (X : Vec Ideal S256x4110 .f32) (p : Fin 256) (q : Fin 4096) :
    k0_pay1 (F := Ideal) X (ix2 p q)
      = max (win15 fun o => X (ix2 p (⟨q.val + o.val, by omega⟩ : Fin 4110))) (Ideal.ofBits .f32 0x00000000#32) := by
  unfold k0_pay1
  rw [shapeCast_self]
  simp only [maximumf_apply, broadcast_apply]
  rw [slice_col 0 (by omega) slices_S256x4110_o0_0_S256x4096 X p q,
    slice_col 1 (by omega) slices_S256x4110_o0_1_S256x4096 X p q,
    slice_col 2 (by omega) slices_S256x4110_o0_2_S256x4096 X p q,
    slice_col 3 (by omega) slices_S256x4110_o0_3_S256x4096 X p q,
    slice_col 4 (by omega) slices_S256x4110_o0_4_S256x4096 X p q,
    slice_col 5 (by omega) slices_S256x4110_o0_5_S256x4096 X p q,
    slice_col 6 (by omega) slices_S256x4110_o0_6_S256x4096 X p q,
    slice_col 7 (by omega) slices_S256x4110_o0_7_S256x4096 X p q,
    slice_col 8 (by omega) slices_S256x4110_o0_8_S256x4096 X p q,
    slice_col 9 (by omega) slices_S256x4110_o0_9_S256x4096 X p q,
    slice_col 10 (by omega) slices_S256x4110_o0_10_S256x4096 X p q,
    slice_col 11 (by omega) slices_S256x4110_o0_11_S256x4096 X p q,
    slice_col 12 (by omega) slices_S256x4110_o0_12_S256x4096 X p q,
    slice_col 13 (by omega) slices_S256x4110_o0_13_S256x4096 X p q,
    slice_col 14 (by omega) slices_S256x4110_o0_14_S256x4096 X p q]
  rfl

/-- If row `p` of the loaded block is row `R` of the widened image, and column `q` of the output block is column `C` of the
    image, the stored value at row `p`, column `q` is the dilated row `R` at column `C`. -/
theorem pay_dil (x : Img.Idx → Ideal .f32) (v : Ideal .f32) (X : Vec Ideal S256x4110 .f32) (p : Fin 256) (q : Fin 4096)
    (R C : Fin 4096) (hX : ∀ k : Fin 4110, X (ix2 p k) = tap x v R k.val) (hC : C.val = q.val) :
    k0_pay1 (F := Ideal) X (ix2 p q) = dil x v (Ideal.ofBits .f32 0x00000000#32) R C := by
  rw [pay_apply]
  unfold dil
  refine congrArg (fun f => max (win15 f) (Ideal.ofBits .f32 0x00000000#32)) (funext fun o => ?_)
  rw [hX, hC]

end Cert.KernelIdeal.Hand

end
-- ==== Proof.KernelValue.lean ====
/-
  What the kernel program leaves in its result, as one function of the image.

  Before the region the host widens the image by seven columns of minus infinity on each side of every row and lays the
  4096 widened rows out as a matrix of 4110 columns. The grid has sixteen points; point `t` is handed rows
  `256 t … 256 t + 255` of that matrix and writes rows `256 t … 256 t + 255` of a 4096 × 4096 matrix: at row `p`, column `q`
  of its block the greatest of the widened row's columns `q … q + 14`, and of zero — the dilated row `256 t + p` at column
  `q`. The sixteen blocks tile the matrix, so after the region it holds the dilated rows, and the host lays them back out
  as the image's shape. Minus infinity is the least extended real, so this is the dilated image.
-/
import proofs.«152111_j10514079941475_1_alg».proof.Proof.Gen.KernelIdeal.Frame
import proofs.«152111_j10514079941475_1_alg».proof.Proof.Payload
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.Dilate

variable (m : (ℓ : Loc nD τ sig) → Buf (Elt Ideal) ℓ) (ρ : Dev nD → PrngReg)

/-- The image as launched on core `c`. -/
abbrev img (c : Dev nD) : Img.Idx → Ideal .f32 := m ((c : Thread nD τ).loc main_arg0)

/-- The matrix the region reads, as it finds it: the image widened by seven columns of the constant on each side, its rows laid
    out as a matrix of 4110 columns. -/
theorem V_v1 (c : Dev nD) : (V m c main_v1 : S4096x4110.Idx → Ideal .f32)
    = shapeCast S4096x4110 (pad S1x1x4096x4110 ![0, 0, 0, 7] ![0, 0, 0, 7] ![0, 0, 0, 0] (img m c) (constant (F := Ideal) S_ .f32 0xFF800000#32) pads_S1x1x4096x4096_S1x1x4096x4110_000_000_000_770 h_S_) shapeCasts_S1x1x4096x4110_S4096x4110 := by
  dsimp only [V, V0]
  simp only [hostOps0, hostOps0_1, hostOps0_2, List.flatten_cons, List.flatten_nil, List.append_nil, List.cons_append, List.nil_append]
  after_results
  rfl

/-- That matrix at row `r`, column `k`: the widened row `r` at column `k`. -/
theorem v1_apply (c : Dev nD) (r : Fin 4096) (k : Fin 4110) :
    (V m c main_v1 : S4096x4110.Idx → Ideal .f32) (ix2 r k) = tap (img m c) (Ideal.ofBits .f32 0xFF800000#32) r k.val := by
  rw [V_v1]
  refine (shapeCast_apply _ shapeCasts_S1x1x4096x4110_S4096x4110 (ix2 r k) (ix4 (0 : Fin 1) (0 : Fin 1) r k) ?_).trans ?_
  · rw [Shape.rowMajor_val_four, Shape.rowMajor_val_two]
    show ((0 * 1 + 0) * 4096 + r.val) * 4110 + k.val = r.val * 4110 + k.val
    omega
  · exact pad_row (img m c) _ _ _ r k

/-- Point `t` of the grid reads block row `t` of the widened matrix and writes block row `t` of the result; both blocks span
    all columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the block point `t` is handed is the widened row `256 t + p`. -/
theorem iblk_apply (c : Dev nD) (t : Fin cfg0.N) (p : Fin 256) (k : Fin 4110) (R : Fin 4096) (hR : R.val = t.val * 256 + p.val) :
    (iblk m c 0 t : S256x4110.Idx → Ideal .f32) (ix2 p k) = tap (img m c) (Ideal.ofBits .f32 0xFF800000#32) R k.val := by
  obtain ⟨e0, e1, -, -⟩ := idx_facts t
  unfold iblk
  rw [View.read_apply]
  show (V m c main_v1 : S4096x4110.Idx → Ideal .f32) _ = _
  rw [← v1_apply m c R k]
  congr 1
  funext a
  apply Fin.ext
  match a with
  | ⟨0, _⟩ => show win0_0.index t (0 : Fin 2) * 256 + 1 * p.val = R.val; rw [e0, hR]; omega
  | ⟨1, _⟩ => show win0_0.index t (1 : Fin 2) * 4110 + 1 * k.val = k.val; rw [e1]; omega

/-- The matrix of dilated rows: row `h`, column `w` is the greatest of the widened row `h` at columns `w … w + 14`, and of zero. -/
def rows (c : Dev nD) : S4096x4096.Idx → Ideal .f32 :=
  fun i => dil (img m c) (Ideal.ofBits .f32 0xFF800000#32) (Ideal.ofBits .f32 0x00000000#32) (i 0) (i 1)

/-- The zero offsets of a whole-block access. -/
theorem hz : (![0, 0] : Fin 2 → Nat) = fun _ => 0 := funext fun a => by fin_cases a <;> rfl

/-- What point `t` writes back is its block of the matrix of dilated rows: the body stores one value over its whole block, and
    at row `p`, column `q` that value is the dilated row `256 t + p` at column `q`. -/
theorem flushed_eq (c : Dev nD) (t : Fin cfg0.N) :
    (dats m 0 c).flushed 1 t = ((cfg0.win 1).blk t).view.read (Elt Ideal) (rows m c) := by
  show (cfg0.win 1).cut (grid0.coords t) ((dats m 0 c).after 1 t) = _
  rw [after0_1]
  unfold out0_1
  rw [View.canon_unit_zero hz]
  simp only [View.ld_unit_zero (S := S256x4110) hz]
  obtain ⟨-, -, e2, e3⟩ := idx_facts t
  funext j
  have hp : (j 0).val < 256 := (j 0).isLt
  have hq : (j 1).val < 4096 := (j 1).isLt
  have ej : (win0 1).xinj (grid0.coords t) j = ix2 (⟨(j 0).val, hp⟩ : Fin 256) (⟨(j 1).val, hq⟩ : Fin 4096) := by
    funext a
    match a with
    | ⟨0, _⟩ => rfl
    | ⟨1, _⟩ => rfl
  show k0_pay1 (F := Ideal) (iblk m c 0 t) ((win0 1).xinj (grid0.coords t) j)
    = dil (img m c) (Ideal.ofBits .f32 0xFF800000#32) (Ideal.ofBits .f32 0x00000000#32)
        ((((cfg0.win 1).blk t).view.emb j) 0) ((((cfg0.win 1).blk t).view.emb j) 1)
  rw [ej]
  refine pay_dil (img m c) _ (iblk m c 0 t) _ _ _ _ (fun k => iblk_apply m c t _ k _ ?_) ?_
  · show win0_1.index t (0 : Fin 2) * 256 + 1 * (j 0).val = t.val * 256 + (j 0).val
    rw [e2]; omega
  · show win0_1.index t (1 : Fin 2) * 4096 + 1 * (j 1).val = (j 1).val
    rw [e3]; omega

/-- The sixteen blocks tile the result matrix — row `r` lies in block `r / 256` —, so after the region it is the matrix of
    dilated rows. -/
theorem final (c : Dev nD) : (dats m 0 c).arrAt 1 cfg0.N = rows m c :=
  (dats m 0 c).arrAt_eq_of_cover 1 (rows m c) (fun t _ => flushed_eq m c t) fun i => by
    have hi0 : (i 0).val < 4096 := (i 0).isLt
    have hi1 : (i 1).val < 4096 := (i 1).isLt
    have hN : cfg0.N = 16 := N_0
    obtain ⟨t, ht⟩ : ∃ t : Fin cfg0.N, t.val = (i 0).val / 256 := ⟨⟨(i 0).val / 256, by rw [hN]; omega⟩, rfl⟩
    obtain ⟨-, -, e2, e3⟩ := idx_facts t
    refine ⟨t, flush0_1 t, ?_⟩
    show i ∈ ((View.whole main_v2).slice (win0_1.rect t)).set
    rw [View.set_slice_whole, Rect.mem_set_unit]
    intro a
    match a with
    | ⟨0, _⟩ =>
      show win0_1.index t (0 : Fin 2) * 256 ≤ (i 0).val ∧ (i 0).val < win0_1.index t (0 : Fin 2) * 256 + 256
      rw [e2, ht]; omega
    | ⟨1, _⟩ =>
      show win0_1.index t (1 : Fin 2) * 4096 ≤ (i 1).val ∧ (i 1).val < win0_1.index t (1 : Fin 2) * 4096 + 4096
      rw [e3]; omega

/-- The program's result: the matrix of dilated rows laid out as the image's shape. -/
theorem tail_eq (c : Dev nD) : Pipeline.afterTail₀ cfgs (dats m) 0 (V0 m) [hostOps1] c main_v3
    = shapeCast S1x1x4096x4096 (rows m c) shapeCasts_S4096x4096_S1x1x4096x4096 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v2) = rows m c :=
    (Pipeline.withArrays_arr spec0 launch0.win.arr_inj c _ _ 1).trans (final m c)
  rw [hw]
  rfl

/-- Laid out as the image's shape, the matrix of dilated rows is the dilated image: index `(0, 0, h, w)` of the image is row `h`,
    column `w` of the matrix, and minus infinity is the least extended real. -/
theorem result_eq (c : Dev nD) : shapeCast S1x1x4096x4096 (rows m c) shapeCasts_S4096x4096_S1x1x4096x4096
    = dilated (img m c) (Ideal.ofBits .f32 0x00000000#32) := by
  funext i
  have i0 : (i 0).val < 1 := (i 0).isLt
  have i1 : (i 1).val < 1 := (i 1).isLt
  refine (shapeCast_apply _ shapeCasts_S4096x4096_S1x1x4096x4096 i (ix2 (i 2) (i 3)) ?_).trans ?_
  · rw [Shape.rowMajor_val_two, Shape.rowMajor_val_four]
    show (i 2).val * 4096 + (i 3).val = (((i 0).val * 1 + (i 1).val) * 4096 + (i 2).val) * 4096 + (i 3).val
    omega
  · unfold rows dilated
    rw [ninf_eq]

/-- The kernel program's run, read: every weakly fair execution ends with the result at the dilated image and the image
    unchanged. -/
theorem run : θ_run defs (onTc (τ := τ) (main (F := Ideal))) ⟨m, fun _ => 0, ρ⟩ fun r => ∀ c : Dev nD,
      r.2.mem ((c : Thread nD τ).loc main_v3) = dilated (img m c) (Ideal.ofBits .f32 0x00000000#32)
      ∧ r.2.mem ((c : Thread nD τ).loc main_arg0) = m ((c : Thread nD τ).loc main_arg0) :=
  (θ_run defs _ _).mono (fun r h c =>
      ⟨((h c).2 main_v3 (Pipeline.mem_restRefs_of main_v3 (by decide) (by decide))).trans ((tail_eq m c).trans (result_eq m c)),
       ((h c).2 main_arg0 (Pipeline.mem_restRefs_of main_arg0 (by decide) (by decide))).trans (W_main_arg0 m (dats m) c)⟩)
    (run_main m ρ)

end Cert.KernelIdeal.Hand

end
-- ==== Proof.RefValue.lean ====
/-
  The reference's result as one function of the image. The host program reduces each window of fifteen columns of a row, the
  row widened by seven columns of minus infinity on each side, by the maximum from minus infinity, and then takes the maximum
  with a zero image. Minus infinity is the least extended real, so the first column absorbs it, and what is left is the nested
  maximum of the fifteen columns and of zero: the dilated image.
-/
import proofs.«152111_j10514079941475_1_alg».proof.Proof.Gen.ReferenceIdeal.Read
import proofs.«152111_j10514079941475_1_alg».proof.Proof.Window

noncomputable section

namespace Cert.ReferenceIdeal.RefValue

open Idealize.ShloMosaic Idealize.ShloMosaic.ValueIdx
open Cert.ReferenceIdeal Cert.ReferenceIdeal.Gen Cert.ReferenceIdeal.Read Cert.Dilate

/-- The window reduction's initial value, the broadcast rank-zero constant, is the least extended real. -/
theorem init_bot : val_main_v0 (F := Ideal) (Shape.Idx.first h_S_) = (⊥ : EReal) := by
  rw [val_main_v0_apply, val_main_cst_apply]
  exact ninf_eq

/-- The reference's last stage is the dilated image: at every index the window reduction is the greatest of the widened row's
    fifteen columns, and the zero image contributes the zero. -/
theorem result_eq (x : (⟨S1x1x4096x4096, .f32⟩ : BufTy).Contents (Elt Ideal)) :
    val_main_v3 (F := Ideal) x = dilated x (Ideal.ofBits .f32 0x00000000#32) := by
  funext i
  rw [val_main_v3_apply, val_main_v2_apply, val_main_cst_0_apply]
  unfold val_main_v1
  rw [reduceWindow_row x _ _ _ init_bot i]
  rfl

end Cert.ReferenceIdeal.RefValue

end
-- ==== Proof.lean ====
/-
  Horizontal dilation of a 4096 × 4096 image with a window of fifteen columns, clamped below at zero: at row `h`, column `w`
  the greatest of the image's columns `w - 7 … w + 7` of row `h` that exist, and of zero.

  The kernel program widens every row by seven columns of minus infinity on each side and, block of 256 rows by block, takes
  the elementwise maximum of the fifteen slices of the widened rows that start at columns `0 … 14`, folded from the left, and
  then of zero. The reference reduces each window of fifteen columns of the same widened rows by the maximum, folded from the
  left FROM minus infinity, and then takes the maximum with zero. Over the extended reals minus infinity is the least element,
  so the reference's first step `max (-∞) e₀` is `e₀`, and from there the two are the same nested maximum
  `max (… (max (max e₀ e₁) e₂) …) e₁₄` of the same fifteen entries `eₙ` — the image's entry at column `w + n - 7` where that
  column exists, minus infinity where it does not. Nothing but `max ⊥ e = e` is used of the order, so the inputs' finiteness
  is never opened.

  Both programs' frames are the generated ones (the reference's is its generated run with the result dropped); the ideal pass
  rewrote nothing, so there is nothing to preserve. What each program leaves in its result is read in
  `Proof/KernelValue.lean` (the kernel's, block by block off its frame run) and `Proof/RefValue.lean` (the reference's, off its
  generated run); `Proof/Window.lean` has the widened row, the fifteen-column maximum, and the host's window reduction and
  padding read at an index; `Proof/Payload.lean` the kernel body's stored value at an index.
-/
import proofs.«152111_j10514079941475_1_alg».proof.Defs
import proofs.«152111_j10514079941475_1_alg».proof.Proof.Gen.Kernel
import proofs.«152111_j10514079941475_1_alg».proof.Proof.Gen.Kernel.Skeleton
import proofs.«152111_j10514079941475_1_alg».proof.Proof.Gen.Kernel.Launch
import proofs.«152111_j10514079941475_1_alg».proof.Proof.Gen.Kernel.Points
import proofs.«152111_j10514079941475_1_alg».proof.Proof.Gen.Kernel.Frame
import proofs.«152111_j10514079941475_1_alg».proof.Proof.Gen.KernelIdeal
import proofs.«152111_j10514079941475_1_alg».proof.Proof.Gen.KernelIdeal.Skeleton
import proofs.«152111_j10514079941475_1_alg».proof.Proof.Gen.KernelIdeal.Launch
import proofs.«152111_j10514079941475_1_alg».proof.Proof.Gen.KernelIdeal.Points
import proofs.«152111_j10514079941475_1_alg».proof.Proof.Gen.KernelIdeal.Frame
import proofs.«152111_j10514079941475_1_alg».proof.Proof.Gen.ReferenceIdeal
import proofs.«152111_j10514079941475_1_alg».proof.Proof.Gen.ReferenceIdeal.Run
import proofs.«152111_j10514079941475_1_alg».proof.Proof.Gen.ReferenceIdeal.Read
import proofs.«152111_j10514079941475_1_alg».proof.Proof.Gen.Pre_finite_inputs
import proofs.«152111_j10514079941475_1_alg».proof.Proof.KernelValue
import proofs.«152111_j10514079941475_1_alg».proof.Proof.RefValue
import Idealize.ShloMosaic.Adequacy
import Idealize.ShloMosaic.Init

noncomputable section

namespace Cert.Proof

open Idealize.ShloMosaic Idealize.SL.Sem

/-- From memories that agree on the image, the kernel program's result and the reference's are the dilated image of that one
    image: the kernel's by its run read block by block, the reference's by its run read stage by stage. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
